-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x64 : S_.BroadcastsInDim S512x64 (![] : Fin 0 → Fin S512x64.rank)
  reducesTo_S512x64_S_d0_1 : S512x64.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x64 .f32) (main_arg3 : FVec F S128x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S1x64 : Shape := ⟨2, ![1, 64]⟩
abbrev S1024x512 : Shape := ⟨2, ![1024, 512]⟩
abbrev S1024x64 : Shape := ⟨2, ![1024, 64]⟩
abbrev S64 : Shape := ⟨1, ![64]⟩
abbrev S8192x64 : Shape := ⟨2, ![8192, 64]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x64, .f32⟩
  | .hbm, ⟨3, _⟩ => ⟨S128x1, .f32⟩
  | .hbm, ⟨4, _⟩ => ⟨S1x64, .f32⟩
  | .hbm, ⟨5, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S1x64, .f32⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S1x64_S1x64_0_0 : ∀ a, (![0, 0] : Fin 2 → Nat) a + S1x64.size a ≤ S1x64.size a
  h_S1x64 : 0 < S1x64.numel
  inb_S1024x512_S1024x512_0_0 : ∀ a, (![0, 0] : Fin 2 → Nat) a + S1024x512.size a ≤ S1024x512.size a
  h_S1024x512 : 0 < S1024x512.numel
  inb_S512x64_S512x64_0_0 : ∀ a, (![0, 0] : Fin 2 → Nat) a + S512x64.size a ≤ S512x64.size a
  h_S512x64 : 0 < S512x64.numel
  shapeCasts_S1x64_S1x64 : S1x64.ShapeCasts S1x64
  reduces_S1024x64_S64 : S1024x64.Reduces [0] S64
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x64.size a ≤ S1x64.size a
  hwx1_0 : ∀ i : grid1.Coords, EltTy.bits .f32 = 32 ∨ (Rect.block (s := S1x64) S1x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x64 : Shape := ⟨2, ![512, 64]⟩
abbrev S128x1 : Shape := ⟨2, ![128, 1]⟩
abbrev S8192x64 : Shape := ⟨2, ![8192, 64]⟩
abbrev S64x1 : Shape := ⟨2, ![64, 1]⟩
abbrev S64 : Shape := ⟨1, ![64]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S8192x1, .f32⟩
  | .hbm, ⟨11, _⟩ => ⟨S64x1, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  slices_S128x1_S64x1_0_0 : S128x1.Slices ![0, 0] S64x1
  shapeCasts_S64x1_S64 : S64x1.ShapeCasts S64
  slices_S128x1_S64x1_64_0 : S128x1.Slices ![64, 0] S64x1
  bcast_S64_S64x1_0 : S64.BroadcastsInDim S64x1 (![0] : Fin 1 → Fin S64x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x512_S512x64_S8192x64_1_0_0_1_n_n_wf : DotDims.WF S8192x512 S512x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
/-
  The mathematics both programs compute, stated once over the argument arrays and over no program.

  With `h : [8192, 512]` and `W : [512, 64]` the product `h · W` has entries `prod h W j k = ∑ l, h[j, l] · W[l, k]`.
  The reference multiplies it on the left by a softmax of a CONSTANT matrix; a softmax of a constant row of length
  8192 is `1 / 8192` at every entry, so every row `i` of its result is `∑ j, (1 / 8192) · (h · W)[j, k]`, the column
  mean of `h · W`, and the final `max · 0` clips it below at zero. The kernel sums the columns of `h · W` eight row blocks of
  1024 at a time, multiplies the column sums by `2⁻¹³ = 1 / 8192`, clips at zero and writes that one row into every
  row of the result. `G` is that common value: `G h W (i, k) = max ((∑ j, (h · W)[j, k]) · (1 / 8192)) 0`.

  Two laws of sums over the extended reals join each side to `G`:
  `sum_coe_mul`: a nonnegative REAL factor moves across a finite sum, `∑ j, c · x j = (∑ j, x j) · c` — true for every
  extended-real summand (for `0 ≤ c < ⊤` multiplication distributes over `+` even at the infinities), so no
  finiteness of the inputs is used;
  `sum_blocks`: a sum over `Fin 8192` is the sum over 8 blocks of the sums over the 1024 rows of each block.
-/
import Idealize.ShloMosaic.PureOps.Ideal
import Idealize.ShloMosaic.Lib.ValueIdx

noncomputable section

namespace Cert.Spec

open Idealize.ShloMosaic Idealize.ShloMosaic.ValueIdx

/-- The shapes of `h`, `W`, the result and the one row of column sums. -/
abbrev SH : Shape := ⟨2, ![8192, 512]⟩
abbrev SW : Shape := ⟨2, ![512, 64]⟩
abbrev SO : Shape := ⟨2, ![8192, 64]⟩
abbrev SR : Shape := ⟨2, ![1, 64]⟩

/-- Entry `(j, k)` of the matrix product `h · W`. -/
def prod (h : SH.Idx → EReal) (w : SW.Idx → EReal) (j : Fin 8192) (k : Fin 64) : EReal :=
  ∑ l : Fin 512, h (ix2 j l) * w (ix2 l k)

/-- Column `k`'s sum over all 8192 rows of `h · W`. -/
def colsum (h : SH.Idx → EReal) (w : SW.Idx → EReal) (k : Fin 64) : EReal :=
  ∑ j : Fin 8192, prod h w j k

/-- The common value of kernel and reference: every row holds the column means of `h · W`, clipped below at zero. -/
def G (h : SH.Idx → EReal) (w : SW.Idx → EReal) : SO.Idx → EReal :=
  fun i => max (colsum h w (i 1) * ((1 / 8192 : ℝ) : EReal)) 0

/-- One row `row` of column sums scaled by `1 / 8192`, clipped below at zero, and copied into every one of the 8192 rows. -/
def rows (row : SR.Idx → EReal) : SO.Idx → EReal :=
  fun i => max (row (ix2 (0 : Fin 1) (i 1)) * ((1 / 8192 : ℝ) : EReal)) 0

/-- `G` is `rows` of the row of column sums. -/
theorem G_eq_rows (h : SH.Idx → EReal) (w : SW.Idx → EReal) : G h w = rows (fun j => colsum h w (j 1)) := rfl

/-- A nonnegative real factor moves across a finite sum of extended reals, whatever the summands. -/
theorem sum_coe_mul {ι : Type*} (s : Finset ι) (c : ℝ) (hc : 0 ≤ c) (x : ι → EReal) :
    ∑ j ∈ s, (c : EReal) * x j = (∑ j ∈ s, x j) * (c : EReal) := by
  classical
  rw [mul_comm]
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

/-- A sum over the 8192 rows is the sum over the 8 row blocks of the sums over each block's 1024 rows
    (row `1024 · s + r` is row `r` of block `s`). -/
theorem sum_blocks (f : Fin 8192 → EReal) :
    ∑ j : Fin 8192, f j
      = ∑ s : Fin 8, ∑ r : Fin 1024, f ⟨1024 * s.val + r.val, by have := s.isLt; have := r.isLt; omega⟩ := by
  rw [← Fintype.sum_prod_type (f := fun p : Fin 8 × Fin 1024 =>
      f ⟨1024 * p.1.val + p.2.val, by have := p.1.isLt; have := p.2.isLt; omega⟩)]
  rw [← Equiv.sum_comp (finProdFinEquiv (m := 8) (n := 1024)) f]
  refine Finset.sum_congr rfl fun p _ => congrArg f (Fin.ext ?_)
  show p.2.val + 1024 * p.1.val = 1024 * p.1.val + p.2.val
  omega

end Cert.Spec

end
-- ==== Proof.LibDotPlain.lean ====
/-
  A general lemma about a plain matrix product's contraction, for any instance of the dimension record.

  A `tpu.matmul` into a zero accumulator and the host's `dot_general` both read, at the extended reals and at an output
  index `j`, as the sum over the record's contraction index `q : d.contr.Idx` of `lhs (d.lhsIdx j q) * rhs (d.rhsIdx j q)`.
  For the plain product `[M, K] × [K, N] → [M, N]` (the left operand contracted on its axis 1, the right on its axis 0,
  no batch axis) the contraction index has one coordinate, and the two operand indices are `(j 0, q)` and `(q, j 1)`;
  so the sum is the textbook `∑ k : Fin K, lhs (j 0, k) * rhs (k, j 1)`.
-/
import Idealize.ShloMosaic.PureOps.Ideal
import Idealize.ShloMosaic.Lib.ValueIdx

noncomputable section

namespace Cert.LibDotPlain

open Idealize.ShloMosaic Idealize.ShloMosaic.ValueIdx

/-- The contraction of a plain matrix product as a sum over `Fin K`. The record `d` enters only through six facts
    that hold of every printed record with dimension numbers `[1] x [0]`, free axes `[0]` and `[1]`, no batch axes:
    its contraction shape has one axis (`hr`) of extent `K` (`hs`), and on each operand axis the operand index is
    the output's coordinate (the free axes: `hl0`, `hr1`) or the contraction's one coordinate (`hl1`, `hr0`). -/
theorem sum_contr_plain {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _ _
    | ⟨1, _⟩ => exact (hl1 _ _).trans hk)
  have er : d.rhsIdx j ((contrEquiv1 d K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.LibDotPlain

end
-- ==== Proof.ColSum.lean ====
/-
  The first pallas_call's result: the row of column sums of `h · W`.

  The call runs a grid of 8 points over `h : [8192, 512]` in row blocks of 1024, with all of `W : [512, 64]` at every
  point, and keeps one `[1, 64]` row whose block index never moves and which is written back after the last point
  only. The first point stores the zero row and then `0 + c₀`; point `t > 0` stores (what point `t - 1` left) `+ cₜ`,
  where `cₜ[k] = ∑ r : Fin 1024, ∑ l : Fin 512, h[1024 t + r, l] · W[l, k]` is column `k`'s sum over block `t` of the
  product — the matrix product into a zero accumulator being the contraction sum and the reduction over axis 0 from
  a zero accumulator the sum over the block's rows. So after point `n` the row holds `0 + ∑ s ≤ n, cₛ` (induction on
  the point), after the eighth point `0 + ∑ s < 8, ∑ r < 1024, (h · W)[1024 s + r, k]`, which is the sum over all 8192
  rows split into 8 blocks of 1024 (`Cert.Spec.sum_blocks`) with the leading zero dropped (`zero_add`): the column sum
  `Cert.Spec.colsum h W k`. The one write-back writes a block that is the whole `[1, 64]` array, so the array ends
  holding that row (`arr_colsum`). Nothing is assumed of the entries of `h` and `W`: every step is an identity of
  extended reals.
-/
import proofs.«109244_j8804682957287_1_alg».proof.Proof.Gen.KernelIdeal.Frame
import proofs.«109244_j8804682957287_1_alg».proof.Proof.Spec
import proofs.«109244_j8804682957287_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ColSum

open Cert.KernelIdeal Cert.KernelIdeal.Gen

/-- The index `(0, 0)` written as the constant zero map. -/
theorem hz : (![0, 0] : Fin 2 → Nat) = fun _ => 0 := funext fun a => by fin_cases a <;> rfl

/-! ## What one grid point leaves in the row of partial column sums -/

/-- A point after the first: over a row `xo` left by the point before, the body leaves `xo` plus the column sums of
    the product of its block `x0` of `h` with `x1 = W` — the payload of its one store, which covers the row and whose
    loads read the whole buffers. -/
theorem out_B {F : FTy → Type} [FloatOps F] (c : Dev nD) (i : grid0.Coords) (a1 : Memref sig .tc .vmem S1024x512 .f32) (h1 : a1.IsWhole)
    (a2 : Memref sig .tc .vmem S512x64 .f32) (h2 : a2.IsWhole) (a3 : Memref sig .tc .vmem S1x64 .f32) (h3 : a3.IsWhole)
    (hc : ¬cond0_0 i) (x0 : Vec F S1024x512 .f32) (x1 : Vec F S512x64 .f32) (xo : Vec F S1x64 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread,
    View.ld_unit_zero (S := S1024x512) hz, View.ld_unit_zero (S := S512x64) hz, View.ld_unit_zero (S := S1x64) hz]

/-- The first point: the body stores the zero row, reads it back, and leaves the zero row plus the column sums of the
    product of its block `x0` of `h` with `x1 = W`. -/
theorem out_A {F : FTy → Type} [FloatOps F] (c : Dev nD) (i : grid0.Coords) (a1 : Memref sig .tc .vmem S1024x512 .f32) (h1 : a1.IsWhole)
    (a2 : Memref sig .tc .vmem S512x64 .f32) (h2 : a2.IsWhole) (a3 : Memref sig .tc .vmem S1x64 .f32) (h3 : a3.IsWhole)
    (hc : cond0_0 i) (x0 : Vec F S1024x512 .f32) (x1 : Vec F S512x64 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x64) hz, View.readCov_unit_zero (S := S1x64) _ hz]
  simp only [View.readAt_eq_ld, h1.read_unread, h2.read_unread,
    View.ld_unit_zero (S := S1024x512) hz, View.ld_unit_zero (S := S512x64) hz]

/-! ## The matrix product's operand indices -/

/-- At output index `i` and contraction index `q`, the left operand of the product is read at row `i 0`, -/
theorem dot_lhs0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl
/-- column `q`; -/
theorem dot_lhs1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
/-- the right operand at row `q`, -/
theorem dot_rhs0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
/-- column `i 1`. -/
theorem dot_rhs1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-! ## The stored rows at an index, over the extended reals -/

/-- The reset row is zero everywhere. -/
theorem pay1_apply (k : Fin 64) : (k0_pay1 (F := Ideal)) (ix2 (0 : Fin 1) k) = 0 := by
  unfold k0_pay1
  rw [broadcast_apply]
  exact Ideal.ofBits_zero_f32

/-- The accumulated row at column `k`: the row before plus `∑ r, ∑ l, x0[r, l] · x1[l, k]`, the sum down column `k` of
    the product of the two blocks — the product into a zero accumulator is the contraction sum, the reduction over
    axis 0 from a zero accumulator is the sum over the 1024 rows, and the two casts keep the entry. -/
theorem pay2_apply (x0 : Vec Ideal S1024x512 .f32) (x1 : Vec Ideal S512x64 .f32) (xo : Vec Ideal S1x64 .f32) (k : Fin 64) :
    k0_pay2 x0 x1 xo (ix2 (0 : Fin 1) k) = xo (ix2 (0 : Fin 1) k) + ∑ r : Fin 1024, ∑ l : Fin 512, x0 (ix2 r l) * x1 (ix2 l k) := by
  unfold k0_pay2
  rw [addf_apply, shapeCast_self]
  refine congrArg (xo (ix2 (0 : Fin 1) k) + ·) ?_
  refine (shapeCast_addUnit_apply (![64]) _ shapeCasts_S64_S1x64 (ix2 (0 : Fin 1) k)).trans ?_
  refine (Ideal.multiReduction_add_single _ _ reduces_S1024x64_S64 _ _ _).trans ?_
  show ∑ r : Fin 1024, _ = _
  refine Finset.sum_congr rfl fun r _ => ?_
  refine (Ideal.matmul_constant_zero_apply _ _ _ _ _).trans ?_
  exact Cert.LibDotPlain.sum_contr_plain dot_S1024x512_S512x64_S1024x64_1_0_0_1_n_n rfl rfl dot_lhs0 dot_lhs1 dot_rhs0 dot_rhs1 x0 x1 _

variable (V : (c : Dev nD) → (b : Ref sig .tc) → Buf (Elt Ideal) ((c : Thread nD τ).loc b))

/-! ## The blocks the windows read -/

/-- The arrays `h` and `W` as the first call finds them. -/
abbrev harr (c : Dev nD) : Cert.Spec.SH.Idx → EReal := V c main_arg0
abbrev warr (c : Dev nD) : Cert.Spec.SW.Idx → EReal := V c main_arg2

/-- Point `t`'s block of `h` and of `W`. -/
abbrev hblk (c : Dev nD) (t : Fin cfg0.N) : Vec Ideal S1024x512 .f32 := iblk0 V c 0 t
abbrev wblk (c : Dev nD) (t : Fin cfg0.N) : Vec Ideal S512x64 .f32 := iblk0 V c 1 t

/-- Row `r` of point `t`'s block of `h` is row `1024 · t + r` of `h`: the block index is `(t, 0)`, the block
    `[1024, 512]`. -/
theorem hblk_apply (c : Dev nD) (t : Fin cfg0.N) (r : Fin 1024) (l : Fin 512) :
    hblk V c t (ix2 r l)
      = harr V c (ix2 (⟨1024 * t.val + r.val, by have := lt_of_lt_of_eq t.isLt (show cfg0.N = 8 from N_0); have := r.isLt; omega⟩ : Fin 8192) l) := by
  have hi := (by decide +kernel : ∀ t : Fin grid0.N, win0_0.index t 0 = t.val ∧ win0_0.index t 1 = 0) t
  unfold hblk iblk0
  rw [View.read_apply]
  show V c main_arg0 _ = V c main_arg0 _
  refine congrArg (V c main_arg0) (funext fun a => Fin.ext ?_)
  match a with
  | ⟨0, _⟩ => show win0_0.index t 0 * 1024 + 1 * r.val = 1024 * t.val + r.val; rw [hi.1]; omega
  | ⟨1, _⟩ => show win0_0.index t 1 * 512 + 1 * l.val = l.val; rw [hi.2]; omega

/-- Every point's block of `W` is all of `W`: the block index is `(0, 0)`, the block `[512, 64]`. -/
theorem wblk_eq (c : Dev nD) (t : Fin cfg0.N) : wblk V c t = warr V c := by
  have hi := (by decide +kernel : ∀ t : Fin grid0.N, win0_1.index t 0 = 0 ∧ win0_1.index t 1 = 0) t
  funext j
  unfold wblk iblk0
  rw [View.read_apply]
  show V c main_arg2 _ = V c main_arg2 _
  refine congrArg (V c main_arg2) (funext fun a => Fin.ext ?_)
  match a with
  | ⟨0, _⟩ => show win0_1.index t 0 * 512 + 1 * (j 0).val = (j 0).val; rw [hi.1]; omega
  | ⟨1, _⟩ => show win0_1.index t 1 * 64 + 1 * (j 1).val = (j 1).val; rw [hi.2]; omega

/-! ## The row after each point -/

/-- Row block `s`'s contribution to column `k`'s sum: `∑ r, (h · W)[1024 s + r, k]`; zero past the eighth block. -/
def blockSum (c : Dev nD) (s : ℕ) (k : Fin 64) : EReal :=
  if hs : s < 8 then
    ∑ r : Fin 1024, Cert.Spec.prod (harr V c) (warr V c) ⟨1024 * s + r.val, by have := r.isLt; omega⟩ k
  else 0

/-- What a point's body adds at column `k`, in terms of the arrays: the column sum of its block of `h · W`. -/
theorem block_colsum (c : Dev nD) (t : Fin cfg0.N) (k : Fin 64) :
    ∑ r : Fin 1024, ∑ l : Fin 512, hblk V c t (ix2 r l) * wblk V c t (ix2 l k) = blockSum V c t.val k := by
  have hN : t.val < 8 := lt_of_lt_of_eq t.isLt (show cfg0.N = 8 from N_0)
  unfold blockSum
  rw [dif_pos hN, wblk_eq]
  refine Finset.sum_congr rfl fun r _ => ?_
  unfold Cert.Spec.prod
  refine Finset.sum_congr rfl fun l _ => ?_
  rw [hblk_apply]

/-- After point `n` the row holds, at column `k`, zero plus the contributions of blocks `0 … n`: the first point
    leaves `0 + ` block 0's, each later point adds its own to what the point before left. -/
theorem outsAt_apply (c : Dev nD) : ∀ (n : ℕ) (h : n < cfg0.N) (k : Fin 64),
    outsAt0 V c n h (ix2 (0 : Fin 1) k) = 0 + ∑ s ∈ Finset.range (n + 1), blockSum V c s k
  | 0, h, k => by
    rw [outsAt0_A V c ⟨0, h⟩ rfl, out_A, pay2_apply, pay1_apply, Finset.sum_range_one]
    exact congrArg (0 + ·) (block_colsum V c ⟨0, h⟩ k)
  | n + 1, h, k => by
    have hN : cfg0.N = 8 := N_0
    have hB : ¬(⟨n + 1, h⟩ : Fin cfg0.N).val % 8 = 0 := by dsimp only; omega
    rw [outsAt0_B V c ⟨n + 1, h⟩ hB]
    dsimp only
    rw [out_B, pay2_apply]
    show outsAt0 V c n _ (ix2 (0 : Fin 1) k) + _ = _
    rw [outsAt_apply c n (Nat.lt_of_succ_lt h) k, Finset.sum_range_succ _ (n + 1), add_assoc]
    exact congrArg (0 + ·) (congrArg (_ + ·) (block_colsum V c ⟨n + 1, h⟩ k))

/-! ## The row after the last point, and the one write-back -/

/-- The row of column sums of `h · W`. -/
abbrev colsumRow (c : Dev nD) : S1x64.Idx → EReal :=
  fun j => Cert.Spec.colsum (harr V c) (warr V c) (j 1)

/-- After the eighth point the row is the row of column sums: zero plus the eight blocks' contributions is the sum
    over all 8192 rows, split into 8 blocks of 1024. -/
theorem outsAt_last (c : Dev nD) (t : Fin cfg0.N) (h7 : t.val = 7) : outsAt0 V c t.val t.isLt = colsumRow V c := by
  funext j
  obtain ⟨p, k, rfl⟩ : ∃ (p : Fin 1) (k : Fin 64), j = ix2 p k := ⟨j 0, j 1, eq_ix2 j⟩
  obtain rfl : p = 0 := Subsingleton.elim _ _
  rw [outsAt_apply, zero_add]
  show _ = Cert.Spec.colsum (harr V c) (warr V c) k
  unfold Cert.Spec.colsum
  rw [Cert.Spec.sum_blocks, h7]
  show ∑ s ∈ Finset.range 8, _ = _
  rw [Finset.sum_range]
  refine Finset.sum_congr rfl fun s _ => ?_
  unfold blockSum
  rw [dif_pos s.isLt]

/-- The row's block index is `(0, 0)` at every point. -/
theorem row_index (t : Fin cfg0.N) : win0_2.index t 0 = 0 ∧ win0_2.index t 1 = 0 :=
  (by decide +kernel : ∀ t : Fin grid0.N, win0_2.index t 0 = 0 ∧ win0_2.index t 1 = 0) t

/-- The one write-back, after the eighth point, writes the row of column sums: the block at index `(0, 0)` of full
    size `[1, 64]` is the array itself. -/
theorem flushed_eq (c : Dev nD) (t : Fin cfg0.N) (hf : (cfg0.win 2).flush t = true) :
    (dat0 V c).flushed 2 t = ((cfg0.win 2).blk t).view.read (Elt Ideal) (colsumRow V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2, outsAt_last V c t0_7 h7]
  have hoff : (fun a => win0_2.index t0_7 a * main_v0.ty.shape.size a) = fun _ => 0 := funext fun a => by
    match a with
    | ⟨0, _⟩ => show win0_2.index t0_7 0 * 1 = 0; rw [(row_index t0_7).1]
    | ⟨1, _⟩ => show win0_2.index t0_7 1 * 64 = 0; rw [(row_index t0_7).2]
  exact (Memref.read_access_unit_zero (Elt Ideal) main_v0 hoff (fun a => by rw [congrFun hoff a]; simp) (colsumRow V c)).symm

/-- After the first pallas_call, entered at contents `V`, its result array (window 2, the [1, 64] row) holds the
    column sums of `h · W`, `h` and `W` being `V`'s contents of the two argument arrays.
    The eighth point is the one that writes back; its block, at index `(0, 0)` and of extents `[1, 64]`, holds every
    index of the array, so the array ends at what that point wrote. -/
theorem arr_colsum (c : Dev nD) :
    (dat0 V c).arrAt 2 cfg0.N
      = fun j : S1x64.Idx => Cert.Spec.colsum (V c main_arg0) (V c main_arg2) (j 1) :=
  (dat0 V c).arrAt_eq_of_cover 2 (colsumRow V c) (flushed_eq V c) fun i =>
    ⟨t0_7, (flush0_2 t0_7).mpr rfl, by
      show i ∈ ((View.whole main_v0).slice (win0_2.rect t0_7)).set
      rw [View.set_slice_whole, Rect.mem_set_unit]
      have hx : win0_2.xsize (grid0.coords t0_7) 0 = 1 ∧ win0_2.xsize (grid0.coords t0_7) 1 = 64 := by decide +kernel
      have h0 : (i 0 : Nat) < 1 := (i 0).isLt
      have h1 : (i 1 : Nat) < 64 := (i 1).isLt
      intro a
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [(row_index t0_7).1, hx.1]; omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [(row_index t0_7).2, hx.2]; omega⟩

end Cert.KernelIdeal.ColSum

end
-- ==== Proof.BroadcastRow.lean ====
/-
  The second pallas_call, read as a value: entered at buffer contents `V`, its result array (the [8192, 64] output,
  written back one [1024, 64] row block per grid point) ends holding `Cert.Spec.rows` of the [1, 64] row it reads:
  every row `i` of the result is `max (row[0, k] · (1 / 8192)) 0`.

  The body loads the whole [1, 64] input block (its window's block index is (0, 0) at every point, so the block IS the
  array `V c main_v0`), multiplies it by the f32 constant `0x39000000 = 2⁻¹³ = 1 / 8192`, takes the maximum with zero, and
  broadcasts the row over the 1024 rows of the output block, which it stores whole. Point `t` writes rows
  `1024 t … 1024 t + 1023`; the value does not depend on the row, so each block is the restriction of the one
  function `rows`, and the eight blocks tile the array (row `i` is in block `i / 1024`).
-/
import proofs.«109244_j8804682957287_1_alg».proof.Proof.Gen.KernelIdeal.Frame
import proofs.«109244_j8804682957287_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BroadcastRow

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The kernel's scale, the f32 pattern `0x39000000`, is the dyadic `2⁻¹³ = 1 / 8192` exactly. -/
theorem scale_eq : Ideal.ofBits .f32 0x39000000#32 = ((1 / 8192 : ℝ) : EReal) := by
  simp [Ideal.ofBits, Ideal.ieee, -EReal.coe_mul]; norm_num

/-- The body's stored value at row `p`, lane `q` of the output block: the loaded row at lane `q`, scaled and clipped —
    the same in every row `p`. -/
theorem pay_apply (x : Vec Ideal S1x64 .f32) (p : Fin 1024) (q : Fin 64) :
    k1_pay1 x (ix2 p q) = max (x (ix2 (0 : Fin 1) q) * ((1 / 8192 : ℝ) : EReal)) 0 := by
  unfold k1_pay1
  refine (broadcastTo_1b_ab_apply _ _ p q).trans ?_
  rw [shapeCast_self, shapeCast_self]
  show max (x (ix2 (0 : Fin 1) q) * Ideal.ofBits .f32 0x39000000#32) (Ideal.ofBits .f32 0x00000000#32) = _
  rw [scale_eq, Ideal.ofBits_zero_f32]

/-- The input window's block at any point is the [1, 64] array itself: its block index is (0, 0). -/
theorem row_block (c : Dev nD) (t : Fin cfg1.N) (q : Fin 64) :
    (iblk1 V c 0 t : Vec Ideal S1x64 .f32) (ix2 (0 : Fin 1) q) = (V c main_v0 : S1x64.Idx → EReal) (ix2 (0 : Fin 1) q) := by
  have hi : win1_0.index t (0 : Fin 2) = 0 ∧ win1_0.index t (1 : Fin 2) = 0 :=
    (by decide +kernel : ∀ t : Fin grid1.N, win1_0.index t (0 : Fin 2) = 0 ∧ win1_0.index t (1 : Fin 2) = 0) t
  unfold iblk1
  rw [View.read_apply]
  show V c main_v0 _ = V c main_v0 _
  refine congrArg (V c main_v0) (funext fun a => Fin.ext ?_)
  match a with
  | ⟨0, _⟩ => show win1_0.index t (0 : Fin 2) * 1 + 1 * 0 = 0; rw [hi.1]
  | ⟨1, _⟩ => show win1_0.index t (1 : Fin 2) * 64 + 1 * q.val = q.val; rw [hi.2]; omega

/-- The output window's block index at point `t` is `(t, 0)`. -/
theorem out_index : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- `rows` at an index whose lane is `q`, whatever its row. -/
theorem rows_apply (r : Cert.Spec.SR.Idx → EReal) (i : Cert.Spec.SO.Idx) (q : Fin 64) (h : i 1 = q) :
    Cert.Spec.rows r i = max (r (ix2 (0 : Fin 1) q) * ((1 / 8192 : ℝ) : EReal)) 0 := by
  subst h; rfl

/-- What point `t` writes back is block `t` of `rows` of the input row. -/
theorem flushed_eq (c : Dev nD) (t : Fin cfg1.N) :
    (dat1 V c).flushed 1 t = ((cfg1.win 1).blk t).view.read (Elt Ideal) (Cert.Spec.rows (V c main_v0)) := by
  show (cfg1.win 1).cut (grid1.coords t) ((dat1 V c).after 1 t) = _
  rw [after1_1]
  unfold out1_1
  rw [View.canon_unit_zero hz]
  simp only [View.ld_unit_zero (S := S1x64) hz]
  funext y
  obtain ⟨p, q, rfl⟩ : ∃ (p : Fin 1024) (q : Fin 64), y = ix2 p q := ⟨y 0, y 1, eq_ix2 y⟩
  rw [View.read_apply]
  refine (pay_apply _ p q).trans ?_
  rw [row_block V c t q]
  have e : (((cfg1.win 1).blk t).view.emb (ix2 p q)) (1 : Fin 2) = q := Fin.ext (by
    show win1_1.index t (1 : Fin 2) * 64 + 1 * q.val = q.val
    rw [(out_index t).2]; omega)
  exact (rows_apply (V c main_v0) (((cfg1.win 1).blk t).view.emb (ix2 p q)) q e).symm

/-- An index of the result is in point `t`'s block iff each coordinate is in the block's range on its axis. -/
theorem mem_blk (t : Fin cfg1.N) (i : S8192x64.Idx) :
    i ∈ ((cfg1.win 1).blk t).view.set ↔ ∀ a : Fin 2, win1_1.index t a * S1024x64.size a ≤ (i a).val ∧ (i a).val < win1_1.index t a * S1024x64.size a + S1024x64.size a := by
  show i ∈ ((View.whole main_v1).slice (win1_1.rect t)).set ↔ _
  rw [View.set_slice_whole, Rect.mem_set_unit]
  exact Iff.rfl

/-- Row `i` of the result lies in the block of point `i / 1024`: the eight blocks tile the array. -/
theorem cover (i : S8192x64.Idx) :
    ∃ t : Fin cfg1.N, (cfg1.win 1).flush t = true ∧ i ∈ ((cfg1.win 1).blk t).view.set := by
  have hi0 : (i 0).val < 8192 := (i 0).isLt
  have hi1 : (i 1).val < 64 := (i 1).isLt
  have hN : cfg1.N = 8 := N_1
  let t : Fin cfg1.N := ⟨(i 0).val / 1024, by rw [hN]; omega⟩
  refine ⟨t, flush1_1 t, ?_⟩
  rw [mem_blk]
  obtain ⟨e0, e1⟩ := out_index t
  have ht : t.val = (i 0).val / 1024 := rfl
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 64 ≤ (i 1).val ∧ (i 1).val < win1_1.index t (1 : Fin 2) * 64 + 64; omega

/-- The result array after the second pallas_call: `rows` of the [1, 64] row it was entered with. -/
theorem arr_rows (c : Dev nD) :
    (dat1 V c).arrAt 1 cfg1.N
      = Cert.Spec.rows (V c main_v0) :=
  (dat1 V c).arrAt_eq_of_cover 1 (Cert.Spec.rows (V c main_v0)) (fun t _ => flushed_eq V c t) cover

end Cert.KernelIdeal.BroadcastRow

end
-- ==== Proof.KValue.lean ====
/-
  The idealized kernel's run, read as a value: its result array ends at `Cert.Spec.G` of the launch contents of `h`
  (argument 0) and `W` (argument 2).

  @main is the two pallas_calls in a row. The run leaves the result array at the contents the second call's write-backs
  leave (`W2`), which is `Cert.Spec.rows` of the [1, 64] row the second call was ENTERED with; that row is what the
  first call's write-back left (`W1`), the column sums of `h · W`, the first call having been entered with the launch
  memory. `rows` of the row of column sums is `G` by definition.
-/
import proofs.«109244_j8804682957287_1_alg».proof.Proof.KLaunch
import proofs.«109244_j8804682957287_1_alg».proof.Proof.ColSum
import proofs.«109244_j8804682957287_1_alg».proof.Proof.BroadcastRow
import proofs.«109244_j8804682957287_1_alg».proof.Proof.Spec

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (ρ : Dev nD → PrngReg)

/-- The [1, 64] row the second call is entered with: the first call's result array after its one write-back, the
    column sums of `h · W` of the launch memory. -/
theorem row_entry (c : Dev nD) :
    V1 m ρ c main_v0
      = fun j : S1x64.Idx => Cert.Spec.colsum (m ((c.tc : Thread nD τ).loc main_arg0)) (m ((c.tc : Thread nD τ).loc main_arg2)) (j 1) :=
  (W1_arr m ρ c 2).trans (Cert.KernelIdeal.ColSum.arr_colsum (V0 m ρ) c)

/-- The result array at the end of the run. -/
theorem result_eq (c : Dev nD) :
    W2 m ρ c (Proc.devRef .tc main_v1)
      = Cert.Spec.G (m ((c.tc : Thread nD τ).loc main_arg0)) (m ((c.tc : Thread nD τ).loc main_arg2)) :=
  ((W2_arr m ρ c 1).trans (Cert.KernelIdeal.BroadcastRow.arr_rows (V1 m ρ) c)).trans
    ((congrArg Cert.Spec.rows (row_entry m ρ c)).trans (Cert.Spec.G_eq_rows _ _).symm)

/-- Every weakly fair execution of the idealized kernel's @main terminates with the result array at `G` of the
    arguments and the arguments unchanged. -/
theorem run : θ_run (defs (F := Ideal)) (onTc (τ := τ) (main (F := Ideal))) ⟨m, fun _ => 0, ρ⟩ fun r => ∀ c : Dev nD,
      r.2.mem ((c.tc : Thread nD τ).loc main_v1)
        = Cert.Spec.G (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m ρ c), (h c).2⟩)
    (Cert.KernelIdeal.Named.run_named m ρ)

end Cert.KernelIdeal.Value

end
-- ==== Proof.RefRun.lean ====
/-
  The reference's run and its value over the extended reals.

  The reference computes `h · W`, then a softmax of a CONSTANT 8192 × 8192 matrix (every entry the same finite real `c`),
  multiplies that softmax on the left of `h · W` and clips the product below at zero. A chain of operations on the fourth
  argument runs in between, whose result nothing later reads.

  Part one lists the program's operations in order (the three outlined functions' operations at their calls) and reads
  the run back: every weakly fair execution terminates, the result array holds `refTerm h W` (the composed term of the
  stages the result depends on) and the four arguments are unchanged.

  Part two evaluates the stages index by index. Row maximum of a constant row from `⊥` is `c`; `c - c = 0` for a real
  `c`; `exp 0 = 1`; the row sum of ones from `0` is `8192`; `1 / 8192` is the softmax's every entry. The last product at
  `(i, k)` is `∑ j, (1 / 8192) · (h · W)[j, k]`, and the nonnegative real factor moves across the sum
  (`Cert.Spec.sum_coe_mul`): that is `Cert.Spec.G h W`.
-/
import proofs.«109244_j8804682957287_1_alg».proof.Defs
import proofs.«109244_j8804682957287_1_alg».proof.Proof.Gen.ReferenceIdeal
import proofs.«109244_j8804682957287_1_alg».proof.Proof.Spec
import proofs.«109244_j8804682957287_1_alg».proof.Proof.LibDotPlain
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic
import Mathlib.Data.Finset.Fold

noncomputable section

open Idealize.ShloMosaic Idealize.ShloMosaic.TcCoe Idealize.SL.Sem Idealize.ShloMosaic.ValueIdx

namespace Cert.ReferenceIdeal.Hand

open Cert.ReferenceIdeal Cert.ReferenceIdeal.Gen Idealize.ShloMosaic.StableHlo

/-! ## The program as a straight line -/

section Line

variable {F : FTy → Type} [FloatOps F]

/-- The reference's forty-one operations in order. The first fourteen are `h · W` and the chain on the fourth argument;
    the next seven are the leaky rectifier's (its zero, the comparison, the slope's copy and broadcast, the product, and the
    selection of its inner function); then the seventeen of the constant matrix's softmax and its product with `h · W`;
    the last three clip at zero (the zero, its broadcast, the maximum). -/
abbrev ops : List (HloOp τ sig (Elt F)) :=
  [ binary main_arg0 main_arg2 main_v0 ((fun l r => Host.dotGeneral dot_S8192x512_S512x64_S8192x64_1_0_0_1_n_n none l r) : (⟨S8192x512, .f32⟩ : BufTy).Contents (Elt F) → (⟨S512x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    reshape main_v1 main_v2 rfl shapeCasts_S64x1_S64,
    unary main_arg3 main_v3 ((extractStridedSlice S64x1 ![64, 0] · slices_S128x1_S64x1_64_0) : (⟨S128x1, .f32⟩ : BufTy).Contents (Elt F) → (⟨S64x1, .f32⟩ : BufTy).Contents (Elt F)),
    reshape main_v3 main_v4 rfl shapeCasts_S64x1_S64,
    unary main_v2 main_v5 (broadcastInDim S64x1 ![0] bcast_S64_S64x1_0 : (⟨S64, .f32⟩ : BufTy).Contents (Elt F) → (⟨S64x1, .f32⟩ : BufTy).Contents (Elt F)),
    binary main_v0 main_v5 main_v6 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v7 (broadcastInDim S64x1 ![0] bcast_S64_S64x1_0 : (⟨S64, .f32⟩ : BufTy).Contents (Elt F) → (⟨S64x1, .f32⟩ : BufTy).Contents (Elt F)),
    binary main_v0 main_v7 main_v8 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v8 main_v9 ((transpose S1x8192 [1, 0] · transposes_S8192x1_S1x8192_1_0) : (⟨S8192x1, .f32⟩ : BufTy).Contents (Elt F) → (⟨S1x8192, .f32⟩ : BufTy).Contents (Elt F)),
    unary main_v6 main_v10 (broadcastInDim S8192x8192 ![0, 1] bcast_S8192x1_S8192x8192_0_1 : (⟨S8192x1, .f32⟩ : BufTy).Contents (Elt F) → (⟨S8192x8192, .f32⟩ : BufTy).Contents (Elt F)),
    unary main_v9 main_v11 (broadcastInDim S8192x8192 ![0, 1] bcast_S1x8192_S8192x8192_0_1 : (⟨S1x8192, .f32⟩ : BufTy).Contents (Elt F) → (⟨S8192x8192, .f32⟩ : BufTy).Contents (Elt F)),
    binary main_v10 main_v11 main_v12 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v12) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v12) main_call0.v4 mulf,
    TRef.ternary main_call0.v1 (.of main_v12) main_call0.v4 main_call0.call0.v0 select,
    nullary main_cst_0 (constant S_ .f32 0xD9FFCB9E#32),
    unary main_cst_0 main_v14 (broadcastInDim S8192x8192 ![] bcast_S_S8192x8192 : (⟨S_, .f32⟩ : BufTy).Contents (Elt F) → (⟨S8192x8192, .f32⟩ : BufTy).Contents (Elt F)),
    nullary main_cst_1 (constant S_ .f32 0xFF800000#32),
    binary main_v14 main_cst_1 main_v15 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v16 (broadcastInDim S8192 ![] bcast_S_S8192 : (⟨S_, .f32⟩ : BufTy).Contents (Elt F) → (⟨S8192, .f32⟩ : BufTy).Contents (Elt F)),
    binary main_v16 main_v15 main_v17 (maximumf : (⟨S8192, .f32⟩ : BufTy).Contents (Elt F) → (⟨S8192, .f32⟩ : BufTy).Contents (Elt F) → (⟨S8192, .f32⟩ : BufTy).Contents (Elt F)),
    unary main_v17 main_v18 (broadcastInDim S8192x1 ![0] bcast_S8192_S8192x1_0 : (⟨S8192, .f32⟩ : BufTy).Contents (Elt F) → (⟨S8192x1, .f32⟩ : BufTy).Contents (Elt F)),
    unary main_v18 main_v19 (broadcastInDim S8192x8192 ![0, 1] bcast_S8192x1_S8192x8192_0_1 : (⟨S8192x1, .f32⟩ : BufTy).Contents (Elt F) → (⟨S8192x8192, .f32⟩ : BufTy).Contents (Elt F)),
    binary main_v14 main_v19 main_v20 (subf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)),
    nullary main_cst_3 (constant S_ .f32 0x00000000#32),
    binary main_v21 main_cst_3 main_v22 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x8192 ![0, 1] bcast_S8192x1_S8192x8192_0_1 : (⟨S8192x1, .f32⟩ : BufTy).Contents (Elt F) → (⟨S8192x8192, .f32⟩ : BufTy).Contents (Elt F)),
    binary main_v21 main_v24 main_v25 (Host.divf : (⟨S8192x8192, .f32⟩ : BufTy).Contents (Elt F) → (⟨S8192x8192, .f32⟩ : BufTy).Contents (Elt F) → (⟨S8192x8192, .f32⟩ : BufTy).Contents (Elt F)),
    binary main_v25 main_v0 main_v26 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call1.cst (constant S_ .f32 0x00000000#32),
    TRef.unary main_call1.cst main_call1.v0 (broadcastInDim S8192x64 ![] bcast_S_S8192x64),
    TRef.binary (.of main_v26) main_call1.v0 main_call1.v1 maximumf ]

set_option maxRecDepth 1024 in
/-- The program is that straight line: the outlined functions unfolded at their calls, sequencing reassociated. -/
theorem main_eq (c : Dev nD) : main (F := F) c = seq ops := by
  simp only [main, fn_leaky_relu.body, fn_where.body, fn_relu.body, seq, bind_assoc, pure_bind]

/-- No array of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of the line touches device arrays only. -/
theorem ops_sub : (ops : List (HloOp τ sig (Elt F))).Forall fun op => op.bufs ⊆ tcRefs τ sig :=
  ⟨binary_bufs_sub .., unary_bufs_sub .., reshape_bufs_sub .., unary_bufs_sub .., reshape_bufs_sub .., unary_bufs_sub ..,
    binary_bufs_sub .., unary_bufs_sub .., binary_bufs_sub .., unary_bufs_sub .., unary_bufs_sub .., unary_bufs_sub ..,
    binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub ..,
    nullary_bufs_sub .., unary_bufs_sub .., binary_bufs_sub ..⟩

end Line

/-! ## The stages the result depends on, at the extended reals -/

/-- `h · W`. -/
def hW (h : FVec Ideal S8192x512 .f32) (w : FVec Ideal S512x64 .f32) : FVec Ideal S8192x64 .f32 :=
  Host.dotGeneral (F := Ideal) dot_S8192x512_S512x64_S8192x64_1_0_0_1_n_n none h w

/-- The constant matrix: one real `c` at every entry. -/
def cmat : FVec Ideal S8192x8192 .f32 :=
  broadcastInDim S8192x8192 ![] bcast_S_S8192x8192 (constant (F := Ideal) S_ .f32 0xD9FFCB9E#32)

/-- Each row's maximum, taken from `⊥`, and once more against `⊥`. -/
def rowMax : FVec Ideal S8192 .f32 :=
  maximumf (F := Ideal) (φ := .f32)
    (broadcastInDim S8192 ![] bcast_S_S8192 (constant (F := Ideal) S_ .f32 0xFF800000#32))
    (Host.reduce (FloatOps.maximumf (F := Ideal) (φ := .f32)) cmat (constant (F := Ideal) S_ .f32 0xFF800000#32)
      reducesTo_S8192x8192_S8192_d1 h_S_)

/-- Each row's maximum copied along its row. -/
def rowMaxMat : FVec Ideal S8192x8192 .f32 :=
  broadcastInDim S8192x8192 ![0, 1] bcast_S8192x1_S8192x8192_0_1
    (broadcastInDim S8192x1 ![0] bcast_S8192_S8192x1_0 rowMax)

/-- The exponential of each entry less its row's maximum. -/
def expd : FVec Ideal S8192x8192 .f32 :=
  Host.exp (F := Ideal) (φ := .f32) (subf (F := Ideal) (φ := .f32) cmat rowMaxMat)

/-- Each row's sum of those exponentials, from `0`. -/
def rowSum : FVec Ideal S8192 .f32 :=
  Host.reduceAdd (F := Ideal) (φ := .f32) expd (constant (F := Ideal) S_ .f32 0x00000000#32)
    reducesTo_S8192x8192_S8192_d1 h_S_

/-- Each row's sum copied along its row. -/
def rowSumMat : FVec Ideal S8192x8192 .f32 :=
  broadcastInDim S8192x8192 ![0, 1] bcast_S8192x1_S8192x8192_0_1
    (broadcastInDim S8192x1 ![0] bcast_S8192_S8192x1_0 rowSum)

/-- The softmax of the constant matrix: each exponential over its row's sum. -/
def att : FVec Ideal S8192x8192 .f32 :=
  Host.divf (F := Ideal) (φ := .f32) expd rowSumMat

/-- The reference's result as one term of `h` and `W`: the softmax times `h · W`, clipped below at zero. -/
def refTerm (h : FVec Ideal S8192x512 .f32) (w : FVec Ideal S512x64 .f32) : FVec Ideal S8192x64 .f32 :=
  maximumf (F := Ideal) (φ := .f32)
    (Host.dotGeneral (F := Ideal) (φ₁ := .f32) (φ₂ := .f32) dot_S8192x8192_S8192x64_S8192x64_1_0_0_1_n_n none att (hW h w))
    (broadcastInDim S8192x64 ![] bcast_S_S8192x64 (constant (F := Ideal) S_ .f32 0x00000000#32))

/-! ## The run read back -/

/-- After the line the result array holds `refTerm` of what the first and third arguments held before it. -/
theorem result_eq (V : Valuation τ sig (Elt Ideal)) :
    after (ops (F := Ideal)) V (main_v27 : DevRef τ sig)
      = refTerm (V (main_arg0 : DevRef τ sig)) (V (main_arg2 : DevRef τ sig)) := by
  after_results_simp
  rfl

/-- Every weakly fair execution of the reference terminates with the result array at `refTerm` of the launch contents
    of `h` and `W`, and the four argument arrays as they were. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
        = refTerm (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (result_eq _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

/-! ## The stages at an index -/

/-- The word of `-∞`. -/
theorem negInf_eq : Ideal.ofBits .f32 0xFF800000#32 = ⊥ := by simp [Ideal.ofBits, Ideal.ieee]

/-- The constant's word denotes a real number (a normal binade: neither exponent corner). -/
theorem const_real : ∃ x : ℝ, Ideal.ofBits .f32 0xD9FFCB9E#32 = (x : EReal) := by
  unfold Ideal.ofBits Ideal.ieee
  simp only []
  rw [if_neg (by decide), if_neg (by decide)]
  exact ⟨_, rfl⟩

/-- A fold of `max` from `⊥` over a nonempty finite family of copies of `c` is `c`. -/
theorem fold_max_const {ι : Type*} (s : Finset ι) (hs : s.Nonempty) (c : EReal) (f : ι → EReal) (hf : ∀ k, f k = c) :
    s.fold max ⊥ f = c := by
  apply le_antisymm
  · exact (Finset.fold_max_le c).mpr ⟨bot_le, fun x _ => (hf x).le⟩
  · obtain ⟨a, ha⟩ := hs
    exact (Finset.le_fold_max c).mpr (Or.inr ⟨a, ha, (hf a).ge⟩)

/-- Eight thousand one hundred and ninety-two ones add up to that number. -/
theorem sum_ones : ∑ _k : Fin 8192, (1 : EReal) = ((8192 : ℝ) : EReal) := by
  rw [Finset.sum_const, Finset.card_univ, Fintype.card_fin, nsmul_one, ← EReal.coe_natCast, Nat.cast_ofNat]

/-- `exp 0 = 1`. -/
theorem exp_zero_eq_one : Ideal.exp 0 = 1 := by
  rw [← EReal.coe_zero, Ideal.exp_coe, Real.exp_zero, EReal.coe_one]

/-- The exponential of an array, at an index. -/
theorem hostExp_apply {s : Shape} (v : FVec Ideal s .f32) (p : s.Idx) :
    Host.exp (F := Ideal) (φ := .f32) v p = Ideal.exp (v p) := rfl

/-- The quotient of two arrays, at an index. -/
theorem hostDivf_apply {s : Shape} (a b : FVec Ideal s .f32) (p : s.Idx) :
    Host.divf (F := Ideal) (φ := .f32) a b p = Ideal.div (a p) (b p) := rfl

/-- A scalar copied to every index of an array, at an index: the scalar. -/
theorem bcastScalar_apply {t : Shape} (hb : S_.BroadcastsInDim t (![] : Fin 0 → Fin t.rank)) (v : FVec Ideal S_ .f32) (p : t.Idx) :
    broadcastInDim t ![] hb v p = v ix0 :=
  broadcastInDim_apply _ _ _ _ ix0 (fun a => a.elim0)

/-- A vector of 8192 entries as a one-column matrix, at `(i, 0)`: entry `i`. -/
theorem bcastCol_apply (v : FVec Ideal S8192 .f32) (i : Fin 8192) (z : Fin 1) :
    broadcastInDim S8192x1 ![0] bcast_S8192_S8192x1_0 v (ix2 i z) = v (ix1 i) :=
  broadcastInDim_apply _ _ _ _ (ix1 i) (fun a => by
    match a with
    | ⟨0, _⟩ => exact (if_neg (by show ¬((8192 : Nat) = 1); decide)).symm)

/-- A one-column matrix copied along its rows, at `(i, j)`: the column's entry `i`. -/
theorem bcastRow_apply (v : FVec Ideal S8192x1 .f32) (i j : Fin 8192) :
    broadcastInDim S8192x8192 ![0, 1] bcast_S8192x1_S8192x8192_0_1 v (ix2 i j) = v (ix2 i (0 : Fin 1)) :=
  broadcastInDim_apply _ _ _ _ (ix2 i (0 : Fin 1)) (fun a => by
    match a with
    | ⟨0, _⟩ => exact (if_neg (by show ¬((8192 : Nat) = 1); decide)).symm
    | ⟨1, _⟩ => exact (if_pos rfl).symm)

/-- Every entry of the constant matrix is `c`. -/
theorem cmat_apply (p : S8192x8192.Idx) : cmat p = Ideal.ofBits .f32 0xD9FFCB9E#32 := by
  unfold cmat
  rw [bcastScalar_apply, constant_apply]

/-- Every row's maximum is `c`: the fold of `max` from `⊥` over the row's 8192 copies of `c`. -/
theorem rowMax_apply (i : Fin 8192) : rowMax (ix1 i) = Ideal.ofBits .f32 0xD9FFCB9E#32 := by
  unfold rowMax
  rw [maximumf_apply, bcastScalar_apply, constant_apply, negInf_eq, max_bot_left,
    Host.reduce_eq_fold_single (FloatOps.maximumf (F := Ideal) (φ := .f32)) cmat _ reducesTo_S8192x8192_S8192_d1 (by decide) h_S_ (ix1 i),
    constant_apply, negInf_eq]
  exact fold_max_const Finset.univ ⟨⟨0, by decide⟩, Finset.mem_univ _⟩ _ _ (fun k => cmat_apply _)

/-- The row maxima copied along the rows: `c` everywhere. -/
theorem rowMaxMat_apply (i j : Fin 8192) : rowMaxMat (ix2 i j) = Ideal.ofBits .f32 0xD9FFCB9E#32 := by
  unfold rowMaxMat
  rw [bcastRow_apply, bcastCol_apply, rowMax_apply]

/-- Each entry less its row's maximum is `c - c = 0`, `c` being real. -/
theorem shifted_apply (i j : Fin 8192) : subf (F := Ideal) (φ := .f32) cmat rowMaxMat (ix2 i j) = 0 := by
  obtain ⟨x, hx⟩ := const_real
  rw [subf_apply, cmat_apply, rowMaxMat_apply, hx, ← EReal.coe_sub, sub_self, EReal.coe_zero]

/-- `exp (c - c) = 1` at every entry. -/
theorem expd_apply (p : S8192x8192.Idx) : expd p = 1 := by
  obtain ⟨i, j, rfl⟩ : ∃ (i j : Fin 8192), p = ix2 i j := ⟨p 0, p 1, eq_ix2 p⟩
  unfold expd
  exact (hostExp_apply _ _).trans ((congrArg Ideal.exp (shifted_apply i j)).trans exp_zero_eq_one)

/-- Every row of ones sums, from `0`, to `8192`. -/
theorem rowSum_apply (i : Fin 8192) : rowSum (ix1 i) = ((8192 : ℝ) : EReal) := by
  unfold rowSum Host.reduceAdd
  rw [Ideal.hostReduceAdd_def, Ideal.hostReduceAdd_single reducesTo_S8192x8192_S8192_d1 (by decide), constant_apply,
    Ideal.ofBits_zero_f32, zero_add, Finset.sum_congr rfl (fun k _ => expd_apply _)]
  exact sum_ones

/-- The row sums copied along the rows: `8192` everywhere. -/
theorem rowSumMat_apply (i j : Fin 8192) : rowSumMat (ix2 i j) = ((8192 : ℝ) : EReal) := by
  unfold rowSumMat
  rw [bcastRow_apply, bcastCol_apply, rowSum_apply]

/-- The softmax of the constant matrix is `1 / 8192` at every entry. -/
theorem att_apply (p : S8192x8192.Idx) : att p = ((1 / 8192 : ℝ) : EReal) := by
  obtain ⟨i, j, rfl⟩ : ∃ (i j : Fin 8192), p = ix2 i j := ⟨p 0, p 1, eq_ix2 p⟩
  unfold att
  refine (hostDivf_apply _ _ _).trans ?_
  rw [expd_apply, rowSumMat_apply, Ideal.div_coe (by norm_num), one_mul]
/-! ## The two products at an index -/

/-- In `h · W` the left operand is read at the result's row. -/
theorem dotHW_l0 (i : S8192x64.Idx) (q : dot_S8192x512_S512x64_S8192x64_1_0_0_1_n_n.contr.Idx) :
    (dot_S8192x512_S512x64_S8192x64_1_0_0_1_n_n.lhsIdx i q 0).val = (i 0).val := by
  unfold DotDims.lhsIdx
  rw [dif_neg (show ¬(0 : Fin S8192x512.rank) ∈ dot_S8192x512_S512x64_S8192x64_1_0_0_1_n_n.lhsBatch by decide),
    dif_pos (show (0 : Fin S8192x512.rank) ∈ dot_S8192x512_S512x64_S8192x64_1_0_0_1_n_n.lhsNonContracting by decide)]
  rfl

/-- In `h · W` the right operand is read at the result's column. -/
theorem dotHW_r1 (i : S8192x64.Idx) (q : dot_S8192x512_S512x64_S8192x64_1_0_0_1_n_n.contr.Idx) :
    (dot_S8192x512_S512x64_S8192x64_1_0_0_1_n_n.rhsIdx i q 1).val = (i 1).val := by
  unfold DotDims.rhsIdx
  rw [dif_neg (show ¬(1 : Fin S512x64.rank) ∈ dot_S8192x512_S512x64_S8192x64_1_0_0_1_n_n.rhsBatch by decide),
    dif_pos (show (1 : Fin S512x64.rank) ∈ dot_S8192x512_S512x64_S8192x64_1_0_0_1_n_n.rhsNonContracting by decide)]
  rfl

/-- `h · W` at `(j, k)` is the sum over the 512 inner positions. -/
theorem hW_apply (h : FVec Ideal S8192x512 .f32) (w : FVec Ideal S512x64 .f32) (j : Fin 8192) (k : Fin 64) :
    hW h w (ix2 j k) = Cert.Spec.prod h w j k := by
  unfold hW Cert.Spec.prod
  simp only [Host.dotGeneral]
  rw [Ideal.dotGeneral_apply]
  exact Cert.LibDotPlain.sum_contr_plain dot_S8192x512_S512x64_S8192x64_1_0_0_1_n_n rfl rfl dotHW_l0
    (fun i q => DotDims.lhsIdx_val_of_single _ rfl i q) (fun i q => DotDims.rhsIdx_val_of_single _ rfl i q) dotHW_r1 h w (ix2 j k)

/-- In the softmax's product the left operand is read at the result's row. -/
theorem dotAtt_l0 (i : S8192x64.Idx) (q : dot_S8192x8192_S8192x64_S8192x64_1_0_0_1_n_n.contr.Idx) :
    (dot_S8192x8192_S8192x64_S8192x64_1_0_0_1_n_n.lhsIdx i q 0).val = (i 0).val := by
  unfold DotDims.lhsIdx
  rw [dif_neg (show ¬(0 : Fin S8192x8192.rank) ∈ dot_S8192x8192_S8192x64_S8192x64_1_0_0_1_n_n.lhsBatch by decide),
    dif_pos (show (0 : Fin S8192x8192.rank) ∈ dot_S8192x8192_S8192x64_S8192x64_1_0_0_1_n_n.lhsNonContracting by decide)]
  rfl

/-- In the softmax's product the right operand is read at the result's column. -/
theorem dotAtt_r1 (i : S8192x64.Idx) (q : dot_S8192x8192_S8192x64_S8192x64_1_0_0_1_n_n.contr.Idx) :
    (dot_S8192x8192_S8192x64_S8192x64_1_0_0_1_n_n.rhsIdx i q 1).val = (i 1).val := by
  unfold DotDims.rhsIdx
  rw [dif_neg (show ¬(1 : Fin S8192x64.rank) ∈ dot_S8192x8192_S8192x64_S8192x64_1_0_0_1_n_n.rhsBatch by decide),
    dif_pos (show (1 : Fin S8192x64.rank) ∈ dot_S8192x8192_S8192x64_S8192x64_1_0_0_1_n_n.rhsNonContracting by decide)]
  rfl

/-- The softmax times a matrix `y`, at `(i, k)`: the sum over the 8192 inner positions. -/
theorem attDot_apply (y : FVec Ideal S8192x64 .f32) (i : Fin 8192) (k : Fin 64) :
    Host.dotGeneral (F := Ideal) (φ₁ := .f32) (φ₂ := .f32) dot_S8192x8192_S8192x64_S8192x64_1_0_0_1_n_n none att y (ix2 i k)
      = ∑ j : Fin 8192, att (ix2 i j) * y (ix2 j k) := by
  simp only [Host.dotGeneral]
  rw [Ideal.dotGeneral_apply]
  exact Cert.LibDotPlain.sum_contr_plain dot_S8192x8192_S8192x64_S8192x64_1_0_0_1_n_n rfl rfl dotAtt_l0
    (fun i q => DotDims.lhsIdx_val_of_single _ rfl i q) (fun i q => DotDims.rhsIdx_val_of_single _ rfl i q) dotAtt_r1 att y (ix2 i k)

/-! ## The reference's term is the common value -/

/-- The softmax's every entry is the real `1 / 8192`; that factor moves across the sum over the rows of `h · W`. -/
theorem refTerm_eq_G (h : FVec Ideal S8192x512 .f32) (w : FVec Ideal S512x64 .f32) : refTerm h w = Cert.Spec.G h w := by
  funext p
  obtain ⟨i, k, rfl⟩ : ∃ (i : Fin 8192) (k : Fin 64), p = ix2 i k := ⟨p 0, p 1, eq_ix2 p⟩
  unfold refTerm Cert.Spec.G Cert.Spec.colsum
  rw [maximumf_apply, attDot_apply, broadcastInDim_apply (k := ix0) (hk := fun a => a.elim0), constant_apply,
    Ideal.ofBits_zero_f32, Finset.sum_congr rfl (fun j _ => by rw [att_apply, hW_apply]),
    Cert.Spec.sum_coe_mul Finset.univ (1 / 8192) (by norm_num)]

/-! ## The run, at the common value -/

/-- At the extended reals every weakly fair execution of the reference's @main terminates
    with its result array at `Cert.Spec.G` of the launch contents of `h` (argument 0) and `W` (argument 2), and all
    four argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
        = Cert.Spec.G (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refTerm_eq_G _ _), (h c).2⟩) (run_term m ρ)

end Cert.ReferenceIdeal.Hand

end
-- ==== Proof.lean ====
/-
  The certificate of the graph-attention kernel against its reference, over the extended reals.

  The reference computes `relu (softmax(Z) · (h · W))` where `Z` is a CONSTANT [8192, 8192] matrix (every entry the same
  finite number), so every softmax entry is `1 / 8192` and every row of the result is the column mean of `h · W`,
  clipped below at zero (the attention logits it also computes reach no result). The kernel computes the column sums of
  `h · W` in a first pallas_call (eight row blocks of 1024 accumulated into one [1, 64] row), and in a second one
  multiplies that row by `2⁻¹³ = 1 / 8192`, clips it at zero and writes it into every row of the [8192, 64] result. Both
  are the one function `Cert.Spec.G` of `h` and `W` (Proof/Spec.lean): on the kernel's side by regrouping the sum over
  the 8192 rows into the blocks' sums (Proof/ColSum.lean, Proof/BroadcastRow.lean, Proof/KValue.lean), on the
  reference's by moving the nonnegative real factor `1 / 8192` across the sum, which holds for all extended reals
  (Proof/RefRun.lean). The precondition (finite inputs) is not used by the value claim.

  The three frames: the two kernel programs' are the generated frame certificates; the reference has no kernel, and its
  frame is its run with the result dropped. The ideal pass rewrote nothing, so `preserves` is `True`.
-/
import proofs.«109244_j8804682957287_1_alg».proof.Defs
import proofs.«109244_j8804682957287_1_alg».proof.Proof.Gen.Kernel
import proofs.«109244_j8804682957287_1_alg».proof.Proof.Gen.Kernel.Frame
import proofs.«109244_j8804682957287_1_alg».proof.Proof.Gen.KernelIdeal
import proofs.«109244_j8804682957287_1_alg».proof.Proof.Gen.KernelIdeal.Frame
import proofs.«109244_j8804682957287_1_alg».proof.Proof.Gen.ReferenceIdeal
import proofs.«109244_j8804682957287_1_alg».proof.Proof.Gen.Pre_finite_inputs
import proofs.«109244_j8804682957287_1_alg».proof.Proof.KValue
import proofs.«109244_j8804682957287_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both runs end with the result array at `G` of `h` and `W`; the two memories agree on the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
